-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S128x256 : Shape := ⟨2, ![128, 256]⟩
abbrev S128 : Shape := ⟨1, ![128]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg1 : IVec S800000 32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294917296#32
  let main_v24 : IVec S800000 32 := broadcastInDim S800000 ![] bcast_S_S800000 main_c_8
  let main_v25 : IVec S800000 1 := cmpi .sge main_arg1 main_v24
  let main_c_9 : IVec S_ 32 := constantI S_ 32 50000#32
  let main_v26 : IVec S800000 32 := broadcastInDim S800000 ![] bcast_S_S800000 main_c_9
  let main_v27 : IVec S800000 1 := cmpi .slt main_arg1 main_v26
  let main_v28 : IVec S800000 1 := andi main_v25 main_v27
  let main_c_10 : IVec S_ 1 := constantI S_ 1 1#1
  let main_v29 : IVec S_ 1 := (fun x v => Host.reduce IntOp.andi x v reducesTo_S800000_S_d0 h_S_) main_v28 main_c_10
  let main_v30 : IVec S_ 1 := andi main_v23 main_v29
  main_v30

def fn {F : FTy → Type} [FloatOps F] (main_arg0 : FVec F S50000x256 .f32) (main_arg1 : IVec S800000 32) (main_arg2 : IVec S800000 32) (main_arg3 : FVec F S800000 .f32) (main_arg4 : FVec F S128x256 .f32) (main_arg5 : FVec F S128 .f32) (main_arg6 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_v13 main_v16
-- ==== Kernel.lean ====
abbrev S50000x256 : Shape := ⟨2, ![50000, 256]⟩
abbrev S800000 : Shape := ⟨1, ![800000]⟩
abbrev S128x256 : Shape := ⟨2, ![128, 256]⟩
abbrev S128 : Shape := ⟨1, ![128]⟩
abbrev S1 : Shape := ⟨1, ![1]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S1x128 : Shape := ⟨2, ![1, 128]⟩

abbrev nBuf : Space → Nat
  | .hbm => 39
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S128, .f32⟩
  | .hbm, ⟨6, _⟩ => ⟨S1, .f32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S1, .i32⟩
  | .hbm, ⟨17, _⟩ => ⟨S_, .i32⟩
  | .hbm, ⟨18, _⟩ => ⟨S800000x1, .i32⟩
  | .hbm, ⟨19, _⟩ => ⟨S800000x1, .i1⟩
  | .hbm, ⟨20, _⟩ => ⟨S1x1, .i32⟩
  | .hbm, ⟨21, _⟩ => ⟨S800000x1, .i32⟩
  | .hbm, ⟨22, _⟩ => ⟨S800000x1, .i1⟩
  | .hbm, ⟨23, _⟩ => ⟨S800000x1, .i1⟩
  | .hbm, ⟨24, _⟩ => ⟨S_, .i1⟩
  | .hbm, ⟨25, _⟩ => ⟨S800000, .i1⟩
  | .hbm, ⟨26, _⟩ => ⟨S800000x128, .f32⟩
  | .hbm, ⟨27, _⟩ => ⟨S800000x128, .i1⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S800000x1, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S1, .f32⟩
  | .local _ .vmem, ⟨9, _⟩ => ⟨S5000x128, .f32⟩
  | .local _ .vmem, ⟨10, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S1_S1_0 : ∀ a, (![0] : Fin 1 → Nat) a + S1.size a ≤ S1.size a
  h_S1 : 0 < S1.numel
  shapeCasts_S1_S1x1 : S1.ShapeCasts S1x1
  broadcasts_S1x1_S5000x128 : S1x1.Broadcasts S5000x128
  dot_S5000x256_S128x256_S5000x128_1_1_0_0_n_n_wf : DotDims.WF S5000x256 S128x256 S5000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S128x256 : Shape := ⟨2, ![128, 256]⟩
abbrev S128 : Shape := ⟨1, ![128]⟩
abbrev S1 : Shape := ⟨1, ![1]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S128, .f32⟩
  | .hbm, ⟨6, _⟩ => ⟨S1, .f32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .i1⟩
  | .hbm, ⟨30, _⟩ => ⟨S1x1, .f32⟩
  | .hbm, ⟨31, _⟩ => ⟨S50000x128, .f32⟩
  | .hbm, ⟨32, _⟩ => ⟨S50000x128, .f32⟩
  | .hbm, ⟨33, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  dot_S50000x256_S128x256_S50000x128_1_1_0_0_n_n_wf : DotDims.WF S50000x256 S128x256 S50000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S128x256_S50000x128_1_1_0_0_n_n : DotDims S50000x256 S128x256 S50000x128 where
  lhsContracting := [1]
  rhsContracting := [1]
  lhsNonContracting := [0]
  rhsNonContracting := [0]
  lhsBatch := []
  rhsBatch := []
  wf := dot_S50000x256_S128x256_S50000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Region0.lean ====
/-
  The first region's array. Its grid has 10 points; point t stages rows 5000·t … 5000·t + 4999 of `seq` [50000, 256] and
  all of `W` [128, 256], and writes back rows 5000·t … 5000·t + 4999 of the product: entry (p, o) of the block is the
  sum over k of seq (5000·t + p, k) · W (o, k) (the change of float format before the product is the identity on the
  extended reals, and the product accumulates into zero). The ten blocks tile the [50000, 128] array, so after the
  region it holds, entry by entry, the sum over k of seq (n, k) · W (o, k): the reference's `dot_general`.
-/
import proofs.«431473_j12489764897129_1_alg».proof.Proof.Gen.KernelIdeal.Frame
import proofs.«431473_j12489764897129_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen Idealize.ShloMosaic Idealize.ShloMosaic.TcCoe Idealize.SL.Sem
open Idealize.ShloMosaic.Pipeline (Dat)

/-! ## The block product at an entry -/

/-- The zero offset of a whole-block access, as a constant function. -/
theorem offset_zero : (![0, 0] : Fin 2 → Nat) = fun _ => 0 :=
  funext fun a => by match a with | ⟨0, _⟩ => rfl | ⟨1, _⟩ => rfl

/-- The left operand's row axis is the result's row axis. -/
theorem lhs_block_0 (i : S5000x128.Idx) (q : dot_S5000x256_S128x256_S5000x128_1_1_0_0_n_n.contr.Idx) :
    (dot_S5000x256_S128x256_S5000x128_1_1_0_0_n_n.lhsIdx i q 0).val = (i 0).val := by
  unfold DotDims.lhsIdx
  rw [dif_neg (show ¬(0 : Fin S5000x256.rank) ∈ dot_S5000x256_S128x256_S5000x128_1_1_0_0_n_n.lhsBatch by decide), dif_pos (show (0 : Fin S5000x256.rank) ∈ dot_S5000x256_S128x256_S5000x128_1_1_0_0_n_n.lhsNonContracting by decide)]
  rfl
/-- The left operand's column axis is the contracted one. -/
theorem lhs_block_1 (i : S5000x128.Idx) (q : dot_S5000x256_S128x256_S5000x128_1_1_0_0_n_n.contr.Idx) :
    (dot_S5000x256_S128x256_S5000x128_1_1_0_0_n_n.lhsIdx i q 1).val = (q ⟨0, by decide⟩).val :=
  dot_S5000x256_S128x256_S5000x128_1_1_0_0_n_n.lhsIdx_val_of_single rfl i q
/-- The right operand's row axis is the result's column axis. -/
theorem rhs_block_0 (i : S5000x128.Idx) (q : dot_S5000x256_S128x256_S5000x128_1_1_0_0_n_n.contr.Idx) :
    (dot_S5000x256_S128x256_S5000x128_1_1_0_0_n_n.rhsIdx i q 0).val = (i 1).val := by
  unfold DotDims.rhsIdx
  rw [dif_neg (show ¬(0 : Fin S128x256.rank) ∈ dot_S5000x256_S128x256_S5000x128_1_1_0_0_n_n.rhsBatch by decide), dif_pos (show (0 : Fin S128x256.rank) ∈ dot_S5000x256_S128x256_S5000x128_1_1_0_0_n_n.rhsNonContracting by decide)]
  rfl
/-- The right operand's column axis is the contracted one. -/
theorem rhs_block_1 (i : S5000x128.Idx) (q : dot_S5000x256_S128x256_S5000x128_1_1_0_0_n_n.contr.Idx) :
    (dot_S5000x256_S128x256_S5000x128_1_1_0_0_n_n.rhsIdx i q 1).val = (q ⟨0, by decide⟩).val :=
  dot_S5000x256_S128x256_S5000x128_1_1_0_0_n_n.rhsIdx_val_of_single rfl i q

/-- Entry (p, o) of the block product: the sum over k of x0 (p, k) · x1 (o, k). -/
theorem block_product_apply (x0 : Vec Ideal S5000x256 .f32) (x1 : Vec Ideal S128x256 .f32) (p : Fin 5000) (o : Fin 128) :
    k0_pay1 (F := Ideal) x0 x1 (ValueIdx.ix2 p o)
      = ∑ k : Fin 256, x0 (ValueIdx.ix2 p k) * x1 (ValueIdx.ix2 o k) := by
  unfold k0_pay1
  show FloatOps.matmul dot_S5000x256_S128x256_S5000x128_1_1_0_0_n_n none (truncf (F := Ideal) .bf16 x0 bitsLt_bf16_f32) (truncf (F := Ideal) .bf16 x1 bitsLt_bf16_f32) (constant (F := Ideal) S5000x128 .f32 0x00000000#32) (ValueIdx.ix2 p o) = _
  rw [Ideal.matmul_constant_zero_apply, ← Equiv.sum_comp (ValueIdx.contrEquiv1 dot_S5000x256_S128x256_S5000x128_1_1_0_0_n_n 256 rfl rfl).symm]
  refine Finset.sum_congr rfl fun k _ => ?_
  have hk := ValueIdx.contrEquiv1_symm_val dot_S5000x256_S128x256_S5000x128_1_1_0_0_n_n 256 rfl rfl k
  have el : dot_S5000x256_S128x256_S5000x128_1_1_0_0_n_n.lhsIdx (ValueIdx.ix2 p o) ((ValueIdx.contrEquiv1 dot_S5000x256_S128x256_S5000x128_1_1_0_0_n_n 256 rfl rfl).symm k) = ValueIdx.ix2 p k := funext fun a => Fin.ext (by
    match a with
    | ⟨0, _⟩ => exact lhs_block_0 _ _
    | ⟨1, _⟩ => exact (lhs_block_1 _ _).trans hk)
  have er : dot_S5000x256_S128x256_S5000x128_1_1_0_0_n_n.rhsIdx (ValueIdx.ix2 p o) ((ValueIdx.contrEquiv1 dot_S5000x256_S128x256_S5000x128_1_1_0_0_n_n 256 rfl rfl).symm k) = ValueIdx.ix2 o k := funext fun a => Fin.ext (by
    match a with
    | ⟨0, _⟩ => exact rhs_block_0 _ _
    | ⟨1, _⟩ => exact (rhs_block_1 _ _).trans hk)
  rw [ValueIdx.truncf_apply, ValueIdx.truncf_apply, el, er]

/-! ## From the blocks to the array -/

/- the contents of the core's buffers when the region is entered -/
variable (V : (c : Dev nD) → (b : Ref sig .tc) → Buf (Elt Ideal) ((c : Thread nD τ).loc b))

/-- The index maps over the grid: at point t the row block of `seq` and of the product is block t, and every other
    block coordinate is 0. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole product `seq · Wᵀ` of the two arrays the region found. -/
theorem flushed_eq (c : Dev nD) (t : Fin cfg0.N) :
    (dat0 (F := Ideal) V c).flushed 2 t
      = ((cfg0.win 2).blk t).view.read (Elt Ideal)
          (Cert.ReferenceIdeal.Read.val_main_v0 (F := Ideal) (V c main_arg0) (V c main_arg4)) := by
  show (cfg0.win 2).cut (grid0.coords t) ((dat0 V c).after 2 t) = _
  rw [after0_2]
  unfold out0_2
  rw [View.canon_unit_zero offset_zero]
  simp only [View.ld_unit_zero (S := S5000x256) offset_zero, View.ld_unit_zero (S := S128x256) offset_zero]
  obtain ⟨e00, e01, e10, e11, e20, e21⟩ := block_indices t
  funext j
  obtain ⟨p, o, rfl⟩ : ∃ (p : Fin 5000) (o : Fin 128), j = ValueIdx.ix2 p o := ⟨j 0, j 1, ValueIdx.eq_ix2 j⟩
  show k0_pay1 (F := Ideal) (iblk0 V c 0 t) (iblk0 V c 1 t) (ValueIdx.ix2 p o)
    = Cert.ReferenceIdeal.Read.val_main_v0 (F := Ideal) (V c main_arg0) (V c main_arg4) (((cfg0.win 2).blk t).view.emb (ValueIdx.ix2 p o))
  refine (block_product_apply (iblk0 V c 0 t) (iblk0 V c 1 t) p o).trans ?_
  rw [Cert.ReferenceIdeal.Read.val_main_v0_apply]
  refine Finset.sum_congr rfl fun k _ => ?_
  have h0 : ((cfg0.win 0).blk t).view.emb (ValueIdx.ix2 p k)
      = Cert.ReferenceIdeal.Read.lidx_main_v0 (((cfg0.win 2).blk t).view.emb (ValueIdx.ix2 p o)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : ((cfg0.win 1).blk t).view.emb (ValueIdx.ix2 o k)
      = Cert.ReferenceIdeal.Read.ridx_main_v0 (((cfg0.win 2).blk t).view.emb (ValueIdx.ix2 p o)) k := by
    funext a; apply Fin.ext
    match a with
    | ⟨0, _⟩ => show win0_1.index t (0 : Fin 2) * 128 + 1 * o.val = win0_2.index t (1 : Fin 2) * 128 + 1 * o.val; omega
    | ⟨1, _⟩ => show win0_1.index t (1 : Fin 2) * 256 + 1 * k.val = k.val; omega
  rw [← h0, ← h1]
  rfl

/-- An entry of the array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row n of the array lies in the block of point n / 5000, which is written back. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < 10 := by omega
  refine ⟨⟨(i 0).val / 5000, ht⟩, flush0_2 _, ?_⟩
  rw [mem_block]
  obtain ⟨e00, e01, e10, e11, e20, e21⟩ := block_indices ⟨(i 0).val / 5000, ht⟩
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e20]; show (i 0).val / 5000 * 5000 ≤ (i 0).val ∧ (i 0).val < (i 0).val / 5000 * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; rw [e21]; omega

/-- After region 0 its output array is the reference's projection of the two argument arrays the region found. -/
theorem arr (c : Dev nD) :
    (dat0 (F := Ideal) V c).arrAt 2 cfg0.N
      = Cert.ReferenceIdeal.Read.val_main_v0 (F := Ideal) (V c main_arg0) (V c main_arg4) :=
  (dat0 (F := Ideal) V c).arrAt_eq_of_cover 2
    (Cert.ReferenceIdeal.Read.val_main_v0 (F := Ideal) (V c main_arg0) (V c main_arg4))
    (fun t _ => flushed_eq V c t) covered

end Cert.KernelIdeal.R0

end
-- ==== Proof.Tail.lean ====
/-
  The reference after its scatter-add, as ONE function of the aggregated array `x` [50000, 128], the bias `b` [128]
  and the slope `a` [1]: with `y = x + b` (the bias laid along the rows), the result is `y` where `y ≥ 0` and
  `a · y` elsewhere. Both programs end with exactly this function of their aggregated array; it is read here at an
  index: entry (n, o) sees `x (n, o)`, `b o` and `a 0` only.
-/
import proofs.«431473_j12489764897129_1_alg».proof.Proof.Gen.ReferenceIdeal.Read

noncomputable section

namespace Cert.Bridge

open Cert.ReferenceIdeal Cert.ReferenceIdeal.Gen Cert.ReferenceIdeal.Read Idealize.ShloMosaic Idealize.ShloMosaic.TcCoe

/-- Bias, then the leaky rectifier with slope `a`, over the whole [50000, 128] array. -/
def tail (x : FVec Ideal S50000x128 .f32) (b : FVec Ideal S128 .f32) (a : FVec Ideal S1 .f32) : FVec Ideal S50000x128 .f32 :=
  select (cmpf .oge (addf x (val_main_v15 (F := Ideal) b)) (val_main_v17 (F := Ideal)))
    (addf x (val_main_v15 (F := Ideal) b))
    (mulf (val_main_v20 (F := Ideal) a) (addf x (val_main_v15 (F := Ideal) b)))

/-- The column of an entry, as an index of the bias vector. -/
abbrev colOf (j : S50000x128.Idx) : S128.Idx := idx_main_v14 (idx_main_v15 j)
/-- The one index of the slope vector. -/
abbrev slot (j : S50000x128.Idx) : S1.Idx := idx_main_v19 (idx_main_v20 j)

/-- Entry `j = (n, o)` of the tail: `y = x j + b o`, kept where `y ≥ 0`, scaled by `a 0` elsewhere. -/
theorem tail_apply (x : FVec Ideal S50000x128 .f32) (b : FVec Ideal S128 .f32) (a : FVec Ideal S1 .f32) (j : S50000x128.Idx) :
    tail x b a j = Scalar.select (FloatOps.cmpf .oge (x j + b (colOf j)) (FloatOps.ofBits (F := Ideal) .f32 0x00000000#32))
      (x j + b (colOf j)) (a (slot j) * (x j + b (colOf j))) := by
  unfold tail
  rw [ValueIdx.select_apply, ValueIdx.cmpf_apply, ValueIdx.mulf_apply, ValueIdx.addf_apply,
    val_main_v15_apply, val_main_v14_apply, val_main_v17_apply, val_main_v20_apply, val_main_v19_apply]
  rfl

end Cert.Bridge

end
-- ==== Proof.Region1.lean ====
/-
  The second region's array. Its grid has 10 points; point t stages rows 5000·t … 5000·t + 4999 of the aggregated
  array `x` [50000, 128], the whole bias `b` [128] and the slope `a` [1], and writes back the same rows of
  y ↦ (y where y ≥ 0, a 0 · y elsewhere) at y = x (n, o) + b o. The ten blocks tile the [50000, 128] array, so after
  the region it holds `Cert.Bridge.tail x b a`.
-/
import proofs.«431473_j12489764897129_1_alg».proof.Proof.Gen.KernelIdeal.Frame
import proofs.«431473_j12489764897129_1_alg».proof.Proof.Gen.ReferenceIdeal.Read
import proofs.«431473_j12489764897129_1_alg».proof.Proof.Tail
import Idealize.ShloMosaic.Lib.Pipeline.Value
import Idealize.ShloMosaic.Lib.ValueIdx
import Idealize.ShloMosaic.PureOps.Ideal.Laws

set_option maxRecDepth 16384

noncomputable section

namespace Cert.KernelIdeal.R1

open Cert.KernelIdeal Cert.KernelIdeal.Gen Idealize.ShloMosaic Idealize.ShloMosaic.TcCoe Idealize.SL.Sem
open Idealize.ShloMosaic.Pipeline (Dat)

/-! ## The body's payload at an entry -/

/-- The column of an entry of a block, as an index of the bias. -/
abbrev col (j : S5000x128.Idx) : S128.Idx := ValueIdx.ix1 ⟨(j 1).val, (j 1).isLt⟩
/-- The one index of the slope. -/
abbrev only : S1.Idx := ValueIdx.ix1 ⟨0, Nat.one_pos⟩

/-- The bias laid along the rows of a block, [128] → [1, 128] → [5000, 128], reads the bias at the entry's column. -/
theorem bias_rows_apply {α : Type} (b : S128.Idx → α) (j : S5000x128.Idx) :
    broadcastTo S5000x128 (shapeCast S1x128 b shapeCasts_S128_S1x128) broadcasts_S1x128_S5000x128 j = b (col j) := by
  refine (broadcastTo_apply _ broadcasts_S1x128_S5000x128 j
    (ValueIdx.ix2 (n0 := 1) (n1 := 128) ⟨0, Nat.one_pos⟩ ⟨(j 1).val, (j 1).isLt⟩) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])).trans ?_
  refine (shapeCast_addUnit_apply ![128] b shapeCasts_S128_S1x128 _).trans ?_
  exact congrArg b (funext fun a => match a with | ⟨0, _⟩ => rfl)

/-- The slope laid over a block, [1] → [1, 1] → [5000, 128], reads the slope's one entry everywhere. -/
theorem slope_all_apply {α : Type} (a : S1.Idx → α) (j : S5000x128.Idx) :
    broadcastTo S5000x128 (shapeCast S1x1 a shapeCasts_S1_S1x1) broadcasts_S1x1_S5000x128 j = a only := by
  refine (broadcastTo_apply _ broadcasts_S1x1_S5000x128 j
    (ValueIdx.ix2 (n0 := 1) (n1 := 1) ⟨0, Nat.one_pos⟩ ⟨0, Nat.one_pos⟩) (fun d => match d with
      | ⟨0, _⟩ => by show 0 = if (1 : Nat) = 1 then 0 else (j 0).val; rw [if_pos rfl]
      | ⟨1, _⟩ => by show 0 = if (1 : Nat) = 1 then 0 else (j 1).val; rw [if_pos rfl])).trans ?_
  refine (shapeCast_addUnit_apply ![1] a shapeCasts_S1_S1x1 _).trans ?_
  exact congrArg a (funext fun d => match d with | ⟨0, _⟩ => rfl)

/-- The payload at entry j = (p, o) of a block: with y = x0 (p, o) + x1 o, it is y where y ≥ 0 and x2 0 · y elsewhere. -/
theorem pay_apply (x0 : Vec Ideal S5000x128 .f32) (x1 : Vec Ideal S128 .f32) (x2 : Vec Ideal S1 .f32) (j : S5000x128.Idx) :
    k1_pay1 (F := Ideal) x0 x1 x2 j
      = Scalar.select (FloatOps.cmpf .oge (x0 j + x1 (col j)) (FloatOps.ofBits (F := Ideal) .f32 0x00000000#32))
          (x0 j + x1 (col j)) (x2 only * (x0 j + x1 (col j))) := by
  unfold k1_pay1
  rw [ValueIdx.select_apply, ValueIdx.cmpf_apply, ValueIdx.mulf_apply, ValueIdx.addf_apply, ValueIdx.broadcast_apply,
    shapeCast_self, bias_rows_apply, slope_all_apply]

/-- A block's entry and the array's entry it stands for see the same three numbers, so the payload there is the tail there. -/
theorem pay_eq_tail (x : FVec Ideal S50000x128 .f32) (b : FVec Ideal S128 .f32) (a : FVec Ideal S1 .f32)
    (x0 : Vec Ideal S5000x128 .f32) (x1 : Vec Ideal S128 .f32) (x2 : Vec Ideal S1 .f32) (j : S5000x128.Idx) (i : S50000x128.Idx)
    (h0 : x0 j = x i) (h1 : x1 (col j) = b (Cert.Bridge.colOf i)) (h2 : x2 only = a (Cert.Bridge.slot i)) :
    k1_pay1 (F := Ideal) x0 x1 x2 j = Cert.Bridge.tail x b a i := by
  rw [pay_apply, Cert.Bridge.tail_apply, h0, h1, h2]

/-! ## From the ten blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The windows' index maps, decided over the ten grid points: point t stages block (t, 0) of the aggregated array and of
    the output, and block 0 of the bias and of the slope. -/
theorem index_facts : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/- the contents of the core's buffers when the region is entered -/
variable (V : (c : Dev nD) → (b : Ref sig .tc) → Buf (Elt Ideal) ((c : Thread nD τ).loc b))

/-- What point t writes back is block t of the tail of the three arrays the region found. -/
theorem flushed_eq (c : Dev nD) (t : Fin cfg1.N) :
    (dat1 (F := Ideal) V c).flushed 3 t
      = ((cfg1.win 3).blk t).view.read (Elt Ideal) (Cert.Bridge.tail (V c main_v7) (V c main_arg5) (V c main_arg6)) := by
  show (cfg1.win 3).cut (grid1.coords t) ((dat1 V c).after 3 t) = _
  rw [after1_3]
  unfold out1_3
  rw [View.canon_unit_zero zeros2]
  simp only [View.ld_unit_zero (S := S5000x128) zeros2, View.ld_unit_zero (S := S128) zeros1, View.ld_unit_zero (S := S1) zeros1]
  obtain ⟨e0, e1, e2, e3, e4, e5⟩ := index_facts t
  funext j
  have h0 : iblk1 V c 0 t j = V c main_v7 (((cfg1.win 3).blk t).view.emb j) := by
    show V c main_v7 (((cfg1.win 0).blk t).view.emb j) = V c main_v7 (((cfg1.win 3).blk t).view.emb j)
    refine congrArg (V c main_v7) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : iblk1 V c 1 t (col j) = V c main_arg5 (Cert.Bridge.colOf (((cfg1.win 3).blk t).view.emb j)) := by
    show V c main_arg5 (((cfg1.win 1).blk t).view.emb (col j)) = V c main_arg5 (Cert.Bridge.colOf (((cfg1.win 3).blk t).view.emb j))
    refine congrArg (V c main_arg5) (funext fun a => Fin.ext ?_)
    match a with
    | ⟨0, _⟩ => show win1_1.index t (0 : Fin 1) * 128 + 1 * (j 1).val = win1_3.index t (1 : Fin 2) * 128 + 1 * (j 1).val; omega
  have h2 : iblk1 V c 2 t only = V c main_arg6 (Cert.Bridge.slot (((cfg1.win 3).blk t).view.emb j)) := by
    show V c main_arg6 (((cfg1.win 2).blk t).view.emb only) = V c main_arg6 (Cert.Bridge.slot (((cfg1.win 3).blk t).view.emb j))
    refine congrArg (V c main_arg6) (funext fun a => Fin.ext ?_)
    match a with
    | ⟨0, _⟩ => show win1_2.index t (0 : Fin 1) * 1 + 1 * 0 = 0; omega
  exact pay_eq_tail (V c main_v7) (V c main_arg5) (V c main_arg6) (iblk1 V c 0 t) (iblk1 V c 1 t) (iblk1 V c 2 t) j
    (((cfg1.win 3).blk t).view.emb j) h0 h1 h2

/-- An index of the array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v8).slice (win1_3.rect t)).set ↔ _
  rw [View.set_slice_whole, Rect.mem_set_unit]
  exact Iff.rfl

/-- The ten blocks tile the array: row n lies in the block of point n / 5000, which is written back. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := by decide
  obtain ⟨t, ht⟩ : ∃ t : Fin cfg1.N, t.val = (i 0).val / 5000 := ⟨⟨(i 0).val / 5000, by omega⟩, rfl⟩
  obtain ⟨e0, e1, e2, e3, e4, e5⟩ := index_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After region 1 its output array is the bias-and-rectifier tail of the three arrays the region found. -/
theorem arr (c : Dev nD) :
    (dat1 (F := Ideal) V c).arrAt 3 cfg1.N
      = Cert.Bridge.tail (V c main_v7) (V c main_arg5) (V c main_arg6) :=
  (dat1 (F := Ideal) V c).arrAt_eq_of_cover 3 _ (fun t _ => flushed_eq V c t) cover

end Cert.KernelIdeal.R1

end
-- ==== Proof.WrapIndex.lean ====
/-
  Signed 32-bit words as row indices of a table with 50000 rows. An index `a` with -50000 ≤ a < 50000 is read the
  way array indexing reads it: a negative index counts from the end, so the row is `a + 50000` when `a < 0` and `a`
  otherwise. No overflow occurs in that sum, and the row so obtained lies in 0 … 49999.
-/
import Idealize.ShloMosaic.PureOps

namespace Cert.Bridge

open Idealize.ShloMosaic

theorem ofBool_eq_one (b : Bool) : BitVec.ofBool b = 1#1 ↔ b = true := by cases b <;> decide

/-- The signed comparisons of two words, read on their integer values. -/
theorem cmpi_slt_iff (a b : BitVec 32) : IntOp.cmpi .slt a b = 1#1 ↔ a.toInt < b.toInt := by
  unfold IntOp.cmpi; simp only [ofBool_eq_one, BitVec.slt, decide_eq_true_eq]
theorem cmpi_sle_iff (a b : BitVec 32) : IntOp.cmpi .sle a b = 1#1 ↔ a.toInt ≤ b.toInt := by
  unfold IntOp.cmpi; simp only [ofBool_eq_one, BitVec.sle, decide_eq_true_eq]
theorem cmpi_sge_iff (a b : BitVec 32) : IntOp.cmpi .sge a b = 1#1 ↔ b.toInt ≤ a.toInt := by
  unfold IntOp.cmpi; simp only [ofBool_eq_one, BitVec.sle, decide_eq_true_eq]

theorem toInt_neg50000 : (4294917296#32 : BitVec 32).toInt = -50000 := by decide
theorem toInt_50000 : (50000#32 : BitVec 32).toInt = 50000 := by decide
theorem toInt_49999 : (49999#32 : BitVec 32).toInt = 49999 := by decide
theorem toInt_0 : (0#32 : BitVec 32).toInt = 0 := by decide

/-- The row a signed index names: counted from the end when negative. -/
def row (a : BitVec 32) : BitVec 32 := Scalar.select (IntOp.cmpi .slt a 0#32) (IntOp.addi a 50000#32) a

/-- An index in -50000 … 49999 names a row in 0 … 49999. -/
theorem row_inRange (a : BitVec 32) (hlo : IntOp.cmpi .sge a 4294917296#32 = 1#1) (hhi : IntOp.cmpi .slt a 50000#32 = 1#1) :
    IntOp.cmpi .sge (row a) 0#32 = 1#1 ∧ IntOp.cmpi .sle (row a) 49999#32 = 1#1 := by
  have h1 : -50000 ≤ a.toInt := by have := (cmpi_sge_iff _ _).mp hlo; rwa [toInt_neg50000] at this
  have h2 : a.toInt < 50000 := by have := (cmpi_slt_iff _ _).mp hhi; rwa [toInt_50000] at this
  rw [cmpi_sge_iff, cmpi_sle_iff, toInt_0, toInt_49999]
  unfold row Scalar.select
  by_cases hn : a.toInt < 0
  · have hc : IntOp.cmpi .slt a 0#32 = 1 := (cmpi_slt_iff _ _).mpr (by rw [toInt_0]; exact hn)
    rw [if_pos hc]
    have hadd : (IntOp.addi a 50000#32).toInt = a.toInt + 50000 := by
      unfold IntOp.addi
      rw [BitVec.toInt_add, toInt_50000]
      unfold Int.bmod
      dsimp only
      split <;> omega
    rw [hadd]; omega
  · have hc : ¬ IntOp.cmpi .slt a 0#32 = 1 := fun h => hn (by have := (cmpi_slt_iff _ _).mp h; rwa [toInt_0] at this)
    rw [if_neg hc]; omega

end Cert.Bridge
-- ==== Proof.MaskAll.lean ====
/-
  A reduction by `and` of a mask whose entries are all 1, started from 1, is 1 at every result index: a fold by
  `and` from 1 over ones never leaves 1.
-/
import Idealize.ShloMosaic.Lib.Affine
import Idealize.ShloMosaic.PureOps.Reduce

namespace Cert.Bridge

open Idealize.ShloMosaic

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi (1#1) (1#1) = 1#1 from by decide]
    exact foldl_andi_ones f l fun n hn => h n (List.mem_cons_of_mem _ hn)

theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x _ fun n _ => hx n

end Cert.Bridge
-- ==== Proof.Stretch.lean ====
/-
  The host operations between the two regions, as functions. From the projected table `x` [50000, 128], the source
  indices `src`, the destination indices `dst` and the edge weights `val` (each [800000]):
    * `rows src`: the row each source index names, a negative index counted from the end (`a + 50000` when `a < 0`);
    * `rowMask r`: for a column of rows `r`, the mask "0 ≤ row ≤ 49999"; `inRange src`: that mask of `rows src`, laid
      along the 128 columns;
    * `gathered x src`: row `rows src e` of `x` for every edge `e`;
    * `taken x src`: `gathered` where the mask holds and a fill value elsewhere;
    * `aggOf g dst val`: the edge rows `g`, each scaled by its edge's weight, summed into the rows `dst` names.
  When every source index lies in -50000 … 49999 the mask holds everywhere, so `taken` is `gathered`.
-/
import proofs.«431473_j12489764897129_1_alg».proof.Proof.Gen.KernelIdeal
import proofs.«431473_j12489764897129_1_alg».proof.Proof.WrapIndex
import proofs.«431473_j12489764897129_1_alg».proof.Proof.MaskAll
import Idealize.ShloMosaic.Lib.Pipeline.Value
import Idealize.ShloMosaic.Lib.ValueIdx

noncomputable section

namespace Cert.KernelIdeal.Mid

open Cert.KernelIdeal Cert.KernelIdeal.Gen Idealize.ShloMosaic Idealize.ShloMosaic.TcCoe

variable {F : FTy → Type} [FloatOps F]

/-- The row each source index names. -/
def rows (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- "0 ≤ row ≤ 49999", for every edge of a column of rows. -/
def rowMask (r : IVec S800000x1 32) : IVec S800000 1 :=
  (fun x v => Host.reduce IntOp.andi x v reducesTo_S800000x1_S800000_d1 h_S_)
    (andi (cmpi .sge r (broadcastInDim S800000x1 ![] bcast_S_S800000x1 (constantI S_ 32 0#32)))
      (cmpi .sle r (broadcastInDim S800000x1 ![0, 1] bcast_S1x1_S800000x1_0_1
        (broadcastInDim S1x1 ![1] bcast_S1_S1x1_1 (constantI S1 32 49999#32)))))
    (constantI S_ 1 1#1)

/-- "The row is one of the table's", for every edge, along the columns. -/
def inRange (src : IVec S800000 32) : IVec S800000x128 1 :=
  broadcastInDim S800000x128 ![0] bcast_S800000_S800000x128_0 (rowMask (rows src))

/-- Each edge's source row of the table. -/
def gathered (x : FVec F S50000x128 .f32) (src : IVec S800000 32) : FVec F S800000x128 .f32 :=
  Host.gather gather_S50000x128_S800000x1_S800000x128_1_0_n_n_0_1_1128 x (rows src)

/-- The same behind the mask, a fill value where it fails. -/
def taken (x : FVec F S50000x128 .f32) (src : IVec S800000 32) : FVec F S800000x128 .f32 :=
  select (inRange src) (gathered x src) (broadcastInDim S800000x128 ![] bcast_S_S800000x128 (constant S_ .f32 0x7FC00000#32))

/-- The weighted edge rows summed into their destination rows, from zero. -/
def aggOf (g : FVec F S800000x128 .f32) (dst : IVec S800000 32) (val : FVec F S800000 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf g (broadcastInDim S800000x128 ![0, 1] bcast_S800000x1_S800000x128_0_1
      (broadcastInDim S800000x1 ![0] bcast_S800000_S800000x1_0 val)))

/-- The edge an entry of the [800000, 1] index column belongs to. -/
abbrev edgeOf (i : S800000x1.Idx) : S800000.Idx := fun a => match a with
  | ⟨0, _⟩ => ⟨(i 0).val, (i 0).isLt⟩
/-- The edge an entry of an [800000, 128] array belongs to. -/
abbrev edgeOfRow (j : S800000x128.Idx) : S800000.Idx := fun a => match a with
  | ⟨0, _⟩ => ⟨(j 0).val, (j 0).isLt⟩

/-- The two constants the wrap compares with and adds, at any edge. -/
theorem zeros_apply (k : S800000.Idx) : broadcastInDim S800000 ![] bcast_S_S800000 (constantI S_ 32 0#32) k = 0#32 := rfl
theorem sizes_apply (k : S800000.Idx) : broadcastInDim S800000 ![] bcast_S_S800000 (constantI S_ 32 50000#32) k = 50000#32 := rfl
/-- The two bounds the mask compares the row with, at any entry of the index column. -/
theorem lo_apply (i : S800000x1.Idx) : broadcastInDim S800000x1 ![] bcast_S_S800000x1 (constantI S_ 32 0#32) i = 0#32 := rfl
theorem hi_apply (i : S800000x1.Idx) :
    broadcastInDim S800000x1 ![0, 1] bcast_S1x1_S800000x1_0_1 (broadcastInDim S1x1 ![1] bcast_S1_S1x1_1 (constantI S1 32 49999#32)) i
      = 49999#32 := rfl

/-- Entry `i` of `rows` is the row its edge's source index names. -/
theorem rows_apply (src : IVec S800000 32) (i : S800000x1.Idx) : rows src i = Cert.Bridge.row (src (edgeOf i)) := by
  unfold rows
  rw [broadcastInDim_apply _ bcast_S800000_S800000x1_0 _ i (edgeOf i) (fun a => match a with
    | ⟨0, _⟩ => by show (i 0).val = if (800000 : Nat) = 1 then 0 else (i 0).val; rw [if_neg (by decide)])]
  show Scalar.select (IntOp.cmpi .slt (src (edgeOf i)) (broadcastInDim S800000 ![] bcast_S_S800000 (constantI S_ 32 0#32) (edgeOf i)))
      (IntOp.addi (src (edgeOf i)) (broadcastInDim S800000 ![] bcast_S_S800000 (constantI S_ 32 50000#32) (edgeOf i))) (src (edgeOf i)) = _
  rw [zeros_apply, sizes_apply]
  rfl

/-- With every source index in -50000 … 49999 the mask holds at every edge and column. -/
theorem inRange_one (src : IVec S800000 32)
    (hsrc : ∀ e, IntOp.cmpi .sge (src e) 4294917296#32 = 1#1 ∧ IntOp.cmpi .slt (src e) 50000#32 = 1#1)
    (j : S800000x128.Idx) : inRange src j = 1#1 := by
  unfold inRange
  rw [broadcastInDim_apply _ bcast_S800000_S800000x128_0 _ j (edgeOfRow j) (fun a => match a with
    | ⟨0, _⟩ => by show (j 0).val = if (800000 : Nat) = 1 then 0 else (j 0).val; rw [if_neg (by decide)])]
  unfold rowMask
  refine Cert.Bridge.reduce_andi_ones _ _ _ _ (fun i => ?_) (fun _ => rfl) _
  show IntOp.andi (IntOp.cmpi .sge (rows src i) (broadcastInDim S800000x1 ![] bcast_S_S800000x1 (constantI S_ 32 0#32) i))
      (IntOp.cmpi .sle (rows src i) (broadcastInDim S800000x1 ![0, 1] bcast_S1x1_S800000x1_0_1
        (broadcastInDim S1x1 ![1] bcast_S1_S1x1_1 (constantI S1 32 49999#32)) i)) = 1#1
  rw [lo_apply, hi_apply, rows_apply]
  exact IntOp.andi_eq_one.2 (Cert.Bridge.row_inRange (src (edgeOf i)) (hsrc _).1 (hsrc _).2)

/-- So the masked rows are the gathered rows: the fill value is never read. -/
theorem taken_eq (x : FVec F S50000x128 .f32) (src : IVec S800000 32)
    (hsrc : ∀ e, IntOp.cmpi .sge (src e) 4294917296#32 = 1#1 ∧ IntOp.cmpi .slt (src e) 50000#32 = 1#1) :
    taken x src = gathered x src := by
  funext j
  unfold taken
  rw [ValueIdx.select_apply, inRange_one src hsrc j]
  rfl

end Cert.KernelIdeal.Mid

end
-- ==== Proof.HostRun.lean ====
/-
  The buffers between the two regions. After the first region the projected table is what its write-backs left and
  the edge arrays are as launched; the host operations that follow compute, into the buffer the second region reads,
  the weighted edge rows summed by destination (`Mid.aggOf (Mid.taken …)`); the bias and the slope reach the second
  region as launched; and the result buffer ends at what the second region's write-backs leave.
-/
import proofs.«431473_j12489764897129_1_alg».proof.Proof.Gen.KernelIdeal.Frame
import proofs.«431473_j12489764897129_1_alg».proof.Proof.Stretch
import Idealize.ShloMosaic.Lib.StableHlo.Run

set_option maxRecDepth 16384

noncomputable section

namespace Cert.KernelIdeal.Mid

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Operations run one after the other -/

section Stages

variable (Wg : Valuation τ sig (Elt F))

/-- Running a list of operations is running its first part and then the rest from what that leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The gathering call in three stages: the rows the source indices name (8 operations), the mask of the rows that are
    the table's (10), the gather behind the mask (5). -/
abbrev stageRows : List (HloOp τ sig (Elt F)) := (hostOps1 (F := F)).take 8
abbrev stageMask : List (HloOp τ sig (Elt F)) := ((hostOps1 (F := F)).drop 8).take 10
abbrev stageTake : List (HloOp τ sig (Elt F)) := (hostOps1 (F := F)).drop 18
theorem hostOps1_stages : hostOps1 (F := F) = stageRows ++ (stageMask ++ stageTake) := rfl

set_option maxHeartbeats 2000000 in
theorem stageRows_rows : after (stageRows (F := F)) Wg (Proc.devRef .tc main_call0_v5) = rows (Wg (Proc.devRef .tc main_arg1)) := by
  simp only [stageRows, hostOps1, List.take_succ_cons, List.take_zero]
  after_results
  rfl
set_option maxHeartbeats 2000000 in
theorem stageRows_table : after (stageRows (F := F)) Wg (Proc.devRef .tc main_v0) = Wg (Proc.devRef .tc main_v0) := by
  simp only [stageRows, hostOps1, List.take_succ_cons, List.take_zero]
  after_results

set_option maxHeartbeats 2000000 in
theorem stageMask_mask : after (stageMask (F := F)) Wg (Proc.devRef .tc main_call0_v12)
    = rowMask (Wg (Proc.devRef .tc main_call0_v5)) := by
  unfold rowMask
  simp only [stageMask, hostOps1, List.take_succ_cons, List.take_zero, List.drop_succ_cons, List.drop_zero]
  after_results
  simp only [TRef.toBuf, TRef.ofBuf, cast_cast, cast_eq]
set_option maxHeartbeats 2000000 in
theorem stageMask_rows : after (stageMask (F := F)) Wg (Proc.devRef .tc main_call0_v5) = Wg (Proc.devRef .tc main_call0_v5) := by
  simp only [stageMask, hostOps1, List.take_succ_cons, List.take_zero, List.drop_succ_cons, List.drop_zero]
  after_results
set_option maxHeartbeats 2000000 in
theorem stageMask_table : after (stageMask (F := F)) Wg (Proc.devRef .tc main_v0) = Wg (Proc.devRef .tc main_v0) := by
  simp only [stageMask, hostOps1, List.take_succ_cons, List.take_zero, List.drop_succ_cons, List.drop_zero]
  after_results

set_option maxHeartbeats 2000000 in
theorem stageTake_taken : after (stageTake (F := F)) Wg (Proc.devRef .tc main_v1)
    = select (broadcastInDim S800000x128 ![0] bcast_S800000_S800000x128_0 (Wg (Proc.devRef .tc main_call0_v12)))
        (Host.gather gather_S50000x128_S800000x1_S800000x128_1_0_n_n_0_1_1128 (Wg (Proc.devRef .tc main_v0)) (Wg (Proc.devRef .tc main_call0_v5)))
        (broadcastInDim S800000x128 ![] bcast_S_S800000x128 (constant S_ .f32 0x7FC00000#32)) := by
  simp only [stageTake, hostOps1, List.drop_succ_cons, List.drop_zero]
  after_results
  simp only [TRef.toBuf, TRef.ofBuf, cast_cast, cast_eq]

/-- The whole call: the masked rows of the table it finds, by the source indices it finds. -/
theorem call_taken : after (hostOps1 (F := F)) Wg (Proc.devRef .tc main_v1)
    = taken (Wg (Proc.devRef .tc main_v0)) (Wg (Proc.devRef .tc main_arg1)) := by
  rw [hostOps1_stages, after_append, after_append, stageTake_taken, stageMask_mask, stageMask_rows, stageMask_table,
    stageRows_rows, stageRows_table]
  rfl

/-- The call writes neither the destination indices nor the edge weights. -/
theorem call_keeps_arg2 : after (hostOps1 (F := F)) Wg (Proc.devRef .tc main_arg2) = Wg (Proc.devRef .tc main_arg2) := by
  after_results
theorem call_keeps_arg3 : after (hostOps1 (F := F)) Wg (Proc.devRef .tc main_arg3) = Wg (Proc.devRef .tc main_arg3) := by
  after_results

set_option maxHeartbeats 2000000 in
/-- The operations after the call: the weighted rows summed into their destination rows. -/
theorem stretch_agg : after (hostOps1_1 (F := F)) Wg (Proc.devRef .tc main_v7)
    = aggOf (Wg (Proc.devRef .tc main_v1)) (Wg (Proc.devRef .tc main_arg2)) (Wg (Proc.devRef .tc main_arg3)) := by
  unfold aggOf
  after_results

end Stages

/-- What the second region finds in its first window's array: the aggregation of the first region's table. -/
theorem W3_main_v7 (c : Dev nD) :
    W3 m ρ c (Proc.devRef .tc main_v7)
      = aggOf (taken (W1 m ρ c (Proc.devRef .tc main_v0)) (W1 m ρ c (Proc.devRef .tc main_arg1)))
          (W1 m ρ c (Proc.devRef .tc main_arg2)) (W1 m ρ c (Proc.devRef .tc main_arg3)) := by
  show after hostOps1_1 (after hostOps1 (W1 m ρ c)) (Proc.devRef .tc main_v7) = _
  rw [stretch_agg, call_taken, call_keeps_arg2, call_keeps_arg3]

/-- After the first region its output array holds what its write-backs left. -/
theorem W1_main_v0 (c : Dev nD) : W1 m ρ c (Proc.devRef .tc main_v0) = (dat0 (V0 m ρ) c).arrAt 2 cfg0.N :=
  W1_arr m ρ c 2

/-- The edge arrays are no window of the first region: they are as launched. -/
theorem W1_main_arg1 (c : Dev nD) : W1 m ρ c (Proc.devRef .tc main_arg1) = m ((c : Thread nD τ).loc main_arg1) :=
  (W1_of_ne m ρ c main_arg1 (by decide)).trans rfl
theorem W1_main_arg2 (c : Dev nD) : W1 m ρ c (Proc.devRef .tc main_arg2) = m ((c : Thread nD τ).loc main_arg2) :=
  (W1_of_ne m ρ c main_arg2 (by decide)).trans rfl
theorem W1_main_arg3 (c : Dev nD) : W1 m ρ c (Proc.devRef .tc main_arg3) = m ((c : Thread nD τ).loc main_arg3) :=
  (W1_of_ne m ρ c main_arg3 (by decide)).trans rfl

/-- The bias and the slope reach the second region as launched (it only reads them). -/
theorem W3_main_arg5 (c : Dev nD) : W3 m ρ c (Proc.devRef .tc main_arg5) = m ((c : Thread nD τ).loc main_arg5) :=
  ((W4_arr m ρ c 1).trans (((dat1 (V3 m ρ) c).arrAt_in 1 rfl _).trans (A_eq1 (V3 m ρ) c 1))).symm.trans (W4_main_arg5 m ρ c)
theorem W3_main_arg6 (c : Dev nD) : W3 m ρ c (Proc.devRef .tc main_arg6) = m ((c : Thread nD τ).loc main_arg6) :=
  ((W4_arr m ρ c 2).trans (((dat1 (V3 m ρ) c).arrAt_in 2 rfl _).trans (A_eq1 (V3 m ρ) c 2))).symm.trans (W4_main_arg6 m ρ c)

/-- The result buffer ends at what the second region's write-backs leave. -/
theorem W4_main_v8 (c : Dev nD) : W4 m ρ c (Proc.devRef .tc main_v8) = (dat1 (V3 m ρ) c).arrAt 3 cfg1.N :=
  W4_arr m ρ c 3

end Cert.KernelIdeal.Mid

end
-- ==== Proof.PreRange.lean ====
/-
  What the precondition says of the source indices. The precondition is a conjunction of "every entry is finite" for
  the five float inputs and of "every entry e of edge_src has -50000 ≤ edge_src e < 50000"; only the last conjunct is
  read here: it gives both comparisons at every entry.
-/
import proofs.«431473_j12489764897129_1_alg».proof.Pre_finite_inputs
import Idealize.ShloMosaic.Lib.ReduceAll
import Idealize.ShloMosaic.PureOps.Ideal

noncomputable section

namespace Cert.Bridge

open Idealize.ShloMosaic Cert.Pre_finite_inputs

instance : Subsingleton Cert.Pre_finite_inputs.S_.Idx := ⟨fun _ _ => funext fun d => d.elim0⟩

/-- Under the precondition every source index lies in -50000 … 49999. -/
theorem src_range [Cert.Pre_finite_inputs.Facts]
    (a0 : FVec Ideal S50000x256 .f32) (a1 a2 : IVec S800000 32) (a3 : FVec Ideal S800000 .f32)
    (a4 : FVec Ideal S128x256 .f32) (a5 : FVec Ideal S128 .f32) (a6 : FVec Ideal S1 .f32)
    (h : Cert.Pre_finite_inputs.fn (F := Ideal) a0 a1 a2 a3 a4 a5 a6 = fun _ => 1#1) (e : S800000.Idx) :
    IntOp.cmpi .sge (a1 e) 4294917296#32 = 1#1 ∧ IntOp.cmpi .slt (a1 e) 50000#32 = 1#1 := by
  have h0 := congrFun h (fun a => a.elim0)
  dsimp only [Cert.Pre_finite_inputs.fn, Cert.Pre_finite_inputs.fn_part1] at h0
  obtain ⟨-, h29⟩ := IntOp.andi_eq_one.1 h0
  have he := Host.reduce_andi_all _ _ _ _ _ h29 e
  exact IntOp.andi_eq_one.1 he

end Cert.Bridge

end
-- ==== Proof.Agree.lean ====
/-
  The two programs' host stretches are one function. The kernel's aggregation of the gathered rows of a table and the
  reference's are the same operations at the same dimension numbers, and the reference's result is the
  bias-and-rectifier tail of its aggregation.
-/
import proofs.«431473_j12489764897129_1_alg».proof.Proof.Stretch
import proofs.«431473_j12489764897129_1_alg».proof.Proof.Tail

noncomputable section

namespace Cert.Bridge

open Idealize.ShloMosaic Cert.ReferenceIdeal Cert.ReferenceIdeal.Gen Cert.ReferenceIdeal.Read

/-- Gathering the rows the source indices name out of the projected table, weighting and summing them by destination:
    the kernel's spelling and the reference's. -/
theorem agg_agree (x0 : FVec Ideal S50000x256 .f32) (x1 x2 : IVec S800000 32) (x3 : FVec Ideal S800000 .f32)
    (x4 : FVec Ideal S128x256 .f32) :
    Cert.KernelIdeal.Mid.aggOf (F := Ideal) (Cert.KernelIdeal.Mid.gathered (F := Ideal) (val_main_v0 (F := Ideal) x0 x4) x1) x2 x3
      = val_main_v13 (F := Ideal) x0 x1 x2 x3 x4 := rfl

/-- The reference's result is the tail of its aggregation. -/
theorem result_agree (x0 : FVec Ideal S50000x256 .f32) (x1 x2 : IVec S800000 32) (x3 : FVec Ideal S800000 .f32)
    (x4 : FVec Ideal S128x256 .f32) (x5 : FVec Ideal S128 .f32) (x6 : FVec Ideal S1 .f32) :
    tail (val_main_v13 (F := Ideal) x0 x1 x2 x3 x4) x5 x6 = val_main_v22 (F := Ideal) x0 x1 x2 x3 x4 x5 x6 := rfl

end Cert.Bridge

end
-- ==== Proof.lean ====
/-
  A graph-convolution layer: project the node features (`seq · Wᵀ`), gather each edge's source row, scale it by the
  edge's weight, sum the edge rows into their destination rows, add the bias and apply the leaky rectifier with slope
  `a`. The kernel does the projection and the bias-and-rectifier step in two tiled regions and the gather, scaling and
  summing on the host between them; the reference does everything on the host.

  On the extended reals the two agree operation by operation except at one place: the kernel's gather replaces the
  rows of out-of-range source indices by a fill value, where the reference reads the nearest row. The precondition
  keeps every source index in -50000 … 49999 (a negative index counts from the end, in both programs), where the
  fill is never read (Stretch.lean), so:
    * region 0's array is the reference's projection (Region0.lean: its ten row blocks tile the array, and each
      entry is the sum over k of seq (n, k) · W (o, k));
    * the host stretch computes the reference's aggregation of it (HostRun.lean, Stretch.lean, Agree.lean);
    * region 1's array is the reference's tail of that (Region1.lean, Tail.lean).
  No algebraic law beyond these identifications is needed, and finiteness of the float inputs is not used.
-/
import proofs.«431473_j12489764897129_1_alg».proof.Defs
import proofs.«431473_j12489764897129_1_alg».proof.Proof.Gen.Kernel
import proofs.«431473_j12489764897129_1_alg».proof.Proof.Gen.Kernel.Skeleton
import proofs.«431473_j12489764897129_1_alg».proof.Proof.Gen.Kernel.Launch
import proofs.«431473_j12489764897129_1_alg».proof.Proof.Gen.Kernel.Points
import proofs.«431473_j12489764897129_1_alg».proof.Proof.Gen.Kernel.Frame
import proofs.«431473_j12489764897129_1_alg».proof.Proof.Gen.KernelIdeal
import proofs.«431473_j12489764897129_1_alg».proof.Proof.Gen.KernelIdeal.Skeleton
import proofs.«431473_j12489764897129_1_alg».proof.Proof.Gen.KernelIdeal.Launch
import proofs.«431473_j12489764897129_1_alg».proof.Proof.Gen.KernelIdeal.Points
import proofs.«431473_j12489764897129_1_alg».proof.Proof.Gen.KernelIdeal.Frame
import proofs.«431473_j12489764897129_1_alg».proof.Proof.Gen.ReferenceIdeal
import proofs.«431473_j12489764897129_1_alg».proof.Proof.Gen.ReferenceIdeal.Run
import proofs.«431473_j12489764897129_1_alg».proof.Proof.Gen.ReferenceIdeal.Read
import proofs.«431473_j12489764897129_1_alg».proof.Proof.Gen.Pre_finite_inputs
import proofs.«431473_j12489764897129_1_alg».proof.Proof.RunResult
import proofs.«431473_j12489764897129_1_alg».proof.Proof.Region0
import proofs.«431473_j12489764897129_1_alg».proof.Proof.Region1
import proofs.«431473_j12489764897129_1_alg».proof.Proof.HostRun
import proofs.«431473_j12489764897129_1_alg».proof.Proof.PreRange
import proofs.«431473_j12489764897129_1_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem

/-! ## The three programs run and leave their arguments alone -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-! ## The kernel's result -/

section KernelValue

open Cert.KernelIdeal Cert.KernelIdeal.Gen Cert.KernelIdeal.Mid Cert.ReferenceIdeal.Read

variable (m : (ℓ : Loc nD τ sig) → Buf (Elt Ideal) ℓ) (ρ : Dev nD → PrngReg)

/-- Under the precondition the kernel's result array is the reference's result stage of the launch arrays. -/
theorem kernel_value (hpre : Cert.Pre_KernelIdeal m) (c : Dev nD) :
    W4 m ρ c (Proc.devRef .tc main_v8) = val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hsrc := fun e => Cert.Bridge.src_range _ _ _ _ _ _ _ (hpre c) e
  calc W4 m ρ c (Proc.devRef .tc main_v8)
      = (dat1 (V3 m ρ) c).arrAt 3 cfg1.N := W4_main_v8 m ρ c
    _ = Cert.Bridge.tail (V3 m ρ c main_v7) (V3 m ρ c main_arg5) (V3 m ρ c main_arg6) := Cert.KernelIdeal.R1.arr (V3 m ρ) c
    _ = Cert.Bridge.tail
          (aggOf (taken (W1 m ρ c (Proc.devRef .tc main_v0)) (W1 m ρ c (Proc.devRef .tc main_arg1)))
            (W1 m ρ c (Proc.devRef .tc main_arg2)) (W1 m ρ c (Proc.devRef .tc main_arg3)))
          (m ((c.tc : Thread nD τ).loc main_arg5)) (m ((c.tc : Thread nD τ).loc main_arg6)) := by
        rw [show V3 m ρ c main_v7 = _ from W3_main_v7 m ρ c, show V3 m ρ c main_arg5 = _ from W3_main_arg5 m ρ c,
          show V3 m ρ c main_arg6 = _ from W3_main_arg6 m ρ c]
    _ = Cert.Bridge.tail
          (aggOf (taken (val_main_v0 (F := Ideal) (m ((c.tc : Thread nD τ).loc main_arg0)) (m ((c.tc : Thread nD τ).loc main_arg4))) (m ((c.tc : Thread nD τ).loc main_arg1))) (m ((c.tc : Thread nD τ).loc main_arg2)) (m ((c.tc : Thread nD τ).loc main_arg3)))
          (m ((c.tc : Thread nD τ).loc main_arg5)) (m ((c.tc : Thread nD τ).loc main_arg6)) := by
        rw [W1_main_v0, W1_main_arg1, W1_main_arg2, W1_main_arg3, Cert.KernelIdeal.R0.arr (V0 m ρ) c]
    _ = Cert.Bridge.tail
          (aggOf (gathered (val_main_v0 (F := Ideal) (m ((c.tc : Thread nD τ).loc main_arg0)) (m ((c.tc : Thread nD τ).loc main_arg4))) (m ((c.tc : Thread nD τ).loc main_arg1))) (m ((c.tc : Thread nD τ).loc main_arg2)) (m ((c.tc : Thread nD τ).loc main_arg3)))
          (m ((c.tc : Thread nD τ).loc main_arg5)) (m ((c.tc : Thread nD τ).loc main_arg6)) := by
        rw [taken_eq _ _ hsrc]
    _ = Cert.Bridge.tail (val_main_v13 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := by
        rw [Cert.Bridge.agg_agree]
    _ = val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := Cert.Bridge.result_agree _ _ _ _ _ _ _

end KernelValue

/-! ## The claims -/

/-- The ideal pass rewrote no operation of this kernel. -/
theorem preserves : Cert.preserves_Kernel_KernelIdeal := trivial

/-- Both idealized programs end, from memories that agree on the arguments, with the reference's result stage of
    those arguments in their result arrays. -/
theorem algebraic : Cert.algebraic_KernelIdeal_ReferenceIdeal := by
  intro m ρ m' ρ' hpre hagree
  refine ⟨fun c => Cert.ReferenceIdeal.Read.val_main_v22 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (kernel_value m ρ hpre c), (h c).2⟩)
      (Cert.KernelIdeal.GenR.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
